-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S400x10000 : Shape := ⟨2, ![400, 10000]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S1x128, .f32⟩
  | .hbm, ⟨10, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S400x128, .f32⟩
  | .local _ .vmem, ⟨4, _⟩ => ⟨S400x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S1x128, .f32⟩
  | .local _ .vmem, ⟨9, _⟩ => ⟨S128x128, .f32⟩
  | .local _ .vmem, ⟨10, _⟩ => ⟨S400x128, .f32⟩
  | .local _ .vmem, ⟨11, _⟩ => ⟨S400x128, .f32⟩
  | .local _ .vmem, ⟨12, _⟩ => ⟨S400x10000, .f32⟩
  | .local _ .vmem, ⟨13, _⟩ => ⟨S400x10000, .f32⟩
  | .local _ .vmem, ⟨14, _⟩ => ⟨S10000x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics both programs compute, over the extended reals.

  A matrix is a function on pairs of coordinates. `mul A B` is the matrix product, entry (r, c) the sum over
  k of A (r, k) · B (k, c); `addRow A v` adds the vector v to every row of A; `clip0 A` replaces every entry
  by its maximum with 0. A two-layer graph convolution with dense adjacency `adj` is then

      hidden = clip0 (adj · (x · W1) + b1) · W2            out = adj · hidden + b2.

  Nothing here needs the inputs finite: both programs apply these very operations in this very order,
  so no distributivity or cancellation is ever used.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals, indexed by the pair of its coordinates. -/
abbrev Mat (a b : Nat) : Type := (⟨2, ![a, b]⟩ : Shape).Idx → EReal
/-- A vector of `b` extended reals. -/
abbrev Row (b : Nat) : Type := (⟨1, ![b]⟩ : Shape).Idx → EReal

/-- The matrix product: entry (r, c) is the sum over k of A (r, k) · B (k, c). -/
def mul {a b c : Nat} (A : Mat a b) (B : Mat b c) : Mat a c :=
  fun i => ∑ k : Fin b, A (ix2 (i 0) k) * B (ix2 k (i 1))

/-- The vector `v` added to every row of `A`. -/
def addRow {a b : Nat} (A : Mat a b) (v : Row b) : Mat a b :=
  fun i => A i + v (ix1 (i 1))

/-- Every entry replaced by its maximum with zero. -/
def clip0 {a b : Nat} (A : Mat a b) : Mat a b :=
  fun i => max (A i) 0

/-- A matrix with one row, read as a vector. -/
def ofRowMat {b : Nat} (v : Mat 1 b) : Row b :=
  fun i => v (ix2 (0 : Fin 1) (i 0))

theorem ofRowMat_apply {b : Nat} (v : Mat 1 b) (q : Fin b) : ofRowMat v (ix1 q) = v (ix2 (0 : Fin 1) q) := rfl

theorem mul_apply {a b c : Nat} (A : Mat a b) (B : Mat b c) (r : Fin a) (q : Fin c) :
    mul A B (ix2 r q) = ∑ k : Fin b, A (ix2 r k) * B (ix2 k q) := rfl

theorem addRow_apply {a b : Nat} (A : Mat a b) (v : Row b) (r : Fin a) (q : Fin b) :
    addRow A v (ix2 r q) = A (ix2 r q) + v (ix1 q) := rfl

theorem clip0_apply {a b : Nat} (A : Mat a b) (r : Fin a) (q : Fin b) :
    clip0 A (ix2 r q) = max (A (ix2 r q)) 0 := rfl

/-- The first layer followed by the second layer's weight: clip0 (adj · S + b1) · W2, for S = x · W1. -/
def hidden {n d e : Nat} (adj : Mat n n) (S : Mat n d) (b1 : Row d) (W2 : Mat d e) : Mat n e :=
  mul (clip0 (addRow (mul adj S) b1)) W2

/-- The second layer's aggregation: adj · H + b2. -/
def aggregate {n e : Nat} (adj : Mat n n) (H : Mat n e) (b2 : Row e) : Mat n e :=
  addRow (mul adj H) b2

/-- The whole two-layer map of the six inputs. -/
def gcn {n d0 d e : Nat} (x : Mat n d0) (adj : Mat n n) (W1 : Mat d0 d) (b1 : Row d) (W2 : Mat d e) (b2 : Row e) : Mat n e :=
  aggregate adj (hidden adj (mul x W1) b1 W2) b2

end Cert.Spec

end
-- ==== Proof.KernelProducts.lean ====
/-
  The two matrix products the three kernel bodies use, read at one entry over the extended reals.

  A product accumulated into the zero matrix has entry (p, q) equal to the sum over k of
  left (p, k) · right (k, q). One product contracts 128 values of k (a 400 × 128 strip times a
  128 × 128 weight), the other 10000 (a 400 × 10000 strip of the adjacency times a 10000 × 128 matrix).
-/
import proofs.«132016_g56513179681533_cont_9to1c4b_341_1_alg».proof.Proof.Gen.KernelIdeal
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.TcCoe Idealize.ShloMosaic.ValueIdx

/-! ## A 400 × 128 strip times a 128 × 128 weight -/

theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (p, q) of the product accumulated into zero is the sum over the 128 values of k of
    left (p, k) · right (k, q): the contraction's one axis re-indexed by its coordinate. -/
theorem matmulW_apply (x0 : FVec Ideal S400x128 .f32) (x1 : FVec Ideal S128x128 .f32) (p : Fin 400) (q : Fin 128) :
    matmul dot_S400x128_S128x128_S400x128_1_0_0_1_n_n none x0 x1 (constant S400x128 .f32 0x00000000#32) (ix2 p q)
      = ∑ k : Fin 128, x0 (ix2 p k) * x1 (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ## A 400 × 10000 strip of the adjacency times a 10000 × 128 matrix -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, q) of the product accumulated into zero is the sum over the 10000 values of k of
    left (p, k) · right (k, q): the contraction's one axis re-indexed by its coordinate. -/
theorem matmulA_apply (x0 : FVec Ideal S400x10000 .f32) (x1 : FVec Ideal S10000x128 .f32) (p : Fin 400) (q : Fin 128) :
    matmul dot_S400x10000_S10000x128_S400x128_1_0_0_1_n_n none x0 x1 (constant S400x128 .f32 0x00000000#32) (ix2 p q)
      = ∑ k : Fin 10000, x0 (ix2 p k) * x1 (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

end Cert.KernelIdeal.Products

end
-- ==== Proof.Region0.lean ====
/-
  The first region: S1 = x · W1, computed in 25 strips of 400 rows.

  At grid point t the body reads rows 400·t … 400·t + 399 of x (all 128 columns) and the whole of W1, multiplies
  them into a zero accumulator and stores the 400 × 128 result, which is written back to rows 400·t … 400·t + 399
  of the output. So entry (400·t + p, q) of the output is the sum over k of x (400·t + p, k) · W1 (k, q): the
  strip t of the product x · W1. The 25 strips tile the 10000 rows, so the output array ends as x · W1, whatever
  contents `V` the region is entered with.
-/
import proofs.«132016_g56513179681533_cont_9to1c4b_341_1_alg».proof.Proof.Gen.KernelIdeal.Frame
import proofs.«132016_g56513179681533_cont_9to1c4b_341_1_alg».proof.Proof.Spec
import proofs.«132016_g56513179681533_cont_9to1c4b_341_1_alg».proof.Proof.KernelProducts
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The feature matrix as the region finds it. -/
abbrev xArr (c : Dev nD) : Spec.Mat 10000 128 := V c main_arg0
/-- The first weight as the region finds it. -/
abbrev wArr (c : Dev nD) : Spec.Mat 128 128 := V c main_arg2

theorem hz : (![0, 0] : Fin 2 → Nat) = fun _ => 0 := funext fun a => by fin_cases a <;> rfl

/-- The body's stored value at entry (p, q): the sum over k of the strip at (p, k) times the weight at (k, q). -/
theorem pay_apply (x0 : Vec Ideal S400x128 .f32) (x1 : Vec Ideal S128x128 .f32) (p : Fin 400) (q : Fin 128) :
    k0_pay1 x0 x1 (ix2 p q) = ∑ k : Fin 128, x0 (ix2 p k) * x1 (ix2 k q) := by
  unfold k0_pay1
  exact Products.matmulW_apply x0 x1 p q

/-- The index maps over the grid: the strip of x and the output strip are both strip t, on all columns; the
    weight's one block is the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt25 (t : Fin cfg0.N) : t.val < 25 := lt_of_lt_of_eq t.isLt N_0

/-- Row p of strip t is row 400·t + p of the array. -/
def row (t : Fin cfg0.N) (p : Fin 400) : Fin 10000 := ⟨t.val * 400 + p.val, by have := lt25 t; have := p.isLt; omega⟩

/-- WHAT POINT t WRITES BACK is strip t of x · W1. -/
theorem flushed_eq (c : Dev nD) (t : Fin cfg0.N) :
    (dat0 V c).flushed 2 t = ((cfg0.win 2).blk t).view.read (Elt Ideal) (Spec.mul (xArr V c) (wArr V c)) := by
  show (cfg0.win 2).cut (grid0.coords t) ((dat0 V c).after 2 t) = _
  rw [after0_2]
  unfold out0_2
  rw [View.canon_unit_zero hz]
  simp only [View.ld_unit_zero (S := S400x128) hz, View.ld_unit_zero (S := S128x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  refine (pay_apply (iblk0 V c 0 t) (iblk0 V c 1 t) p q).trans ?_
  show ∑ k : Fin 128, xArr V c (((cfg0.win 0).blk t).view.emb (ix2 p k)) * wArr V c (((cfg0.win 1).blk t).view.emb (ix2 k q))
      = Spec.mul (xArr V c) (wArr V c) (((cfg0.win 2).blk t).view.emb (ix2 p q))
  have ho : ((cfg0.win 2).blk t).view.emb (ix2 p q) = (ix2 (row t p) q : S10000x128.Idx) := by
    funext a; apply Fin.ext
    match a with
    | ⟨0, _⟩ => show win0_2.index t (0 : Fin 2) * 400 + 1 * p.val = t.val * 400 + p.val; omega
    | ⟨1, _⟩ => show win0_2.index t (1 : Fin 2) * 128 + 1 * q.val = q.val; omega
  rw [ho, Spec.mul_apply]
  refine Finset.sum_congr rfl fun k _ => ?_
  have hx : ((cfg0.win 0).blk t).view.emb (ix2 p k) = (ix2 (row t p) k : S10000x128.Idx) := by
    funext a; apply Fin.ext
    match a with
    | ⟨0, _⟩ => show win0_0.index t (0 : Fin 2) * 400 + 1 * p.val = t.val * 400 + p.val; omega
    | ⟨1, _⟩ => show win0_0.index t (1 : Fin 2) * 128 + 1 * k.val = k.val; omega
  have hw : ((cfg0.win 1).blk t).view.emb (ix2 k q) = (ix2 k q : S128x128.Idx) := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output array is in point t's block iff each coordinate is in the block's range on its axis. -/
theorem mem_blk (t : Fin cfg0.N) (i : S10000x128.Idx) :
    i ∈ ((cfg0.win 2).blk t).view.set ↔ ∀ a : Fin 2, win0_2.index t a * S400x128.size a ≤ (i a).val ∧ (i a).val < win0_2.index t a * S400x128.size a + S400x128.size a := by
  show i ∈ ((View.whole main_call0_v0).slice (win0_2.rect t)).set ↔ _
  rw [View.set_slice_whole, Rect.mem_set_unit]
  exact Iff.rfl

/-- The 25 strips tile the rows: row r lies in strip r / 400. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : (i 0).val / 400 < cfg0.N := by show _ < grid0.N; rw [N_0]; omega
  obtain ⟨-, -, -, -, e4, e5⟩ := idx_facts ⟨(i 0).val / 400, hN⟩
  refine ⟨⟨(i 0).val / 400, hN⟩, flush0_2 _, ?_⟩
  rw [mem_blk]
  intro a
  match a with
  | ⟨0, _⟩ =>
    show win0_2.index ⟨(i 0).val / 400, hN⟩ (0 : Fin 2) * 400 ≤ (i 0).val ∧ (i 0).val < win0_2.index ⟨(i 0).val / 400, hN⟩ (0 : Fin 2) * 400 + 400
    rw [e4]; show (i 0).val / 400 * 400 ≤ (i 0).val ∧ (i 0).val < (i 0).val / 400 * 400 + 400; omega
  | ⟨1, _⟩ =>
    show win0_2.index ⟨(i 0).val / 400, hN⟩ (1 : Fin 2) * 128 ≤ (i 1).val ∧ (i 1).val < win0_2.index ⟨(i 0).val / 400, hN⟩ (1 : Fin 2) * 128 + 128
    rw [e5]; omega

/-- THE OUTPUT ARRAY after the region: x · W1 of the arrays the region was entered with. -/
theorem final (c : Dev nD) : (dat0 V c).arrAt 2 cfg0.N = Spec.mul (xArr V c) (wArr V c) :=
  (dat0 V c).arrAt_eq_of_cover 2 (Spec.mul (xArr V c) (wArr V c)) (fun t _ => flushed_eq V c t) cover

end Cert.KernelIdeal.Region0

end
-- ==== Proof.Region1.lean ====
/-
  The second region: S2 = clip0 (adj · S1 + b1) · W2, computed in 25 strips of 400 rows.

  At grid point t the body reads rows 400·t … 400·t + 399 of the adjacency (all 10000 columns), the whole of S1,
  the bias as a 1 × 128 row and the whole of W2. It multiplies the strip by S1 into a zero accumulator, adds the
  bias to every row, takes the maximum with zero entry by entry, multiplies by W2 into a zero accumulator and
  stores the 400 × 128 result, which is written back to rows 400·t … 400·t + 399 of the output. So entry
  (400·t + p, q) of the output is the sum over k of max (Σ_l adj (400·t + p, l) · S1 (l, k) + b1 k, 0) · W2 (k, q).
  The 25 strips tile the rows, so the output array ends as that function of the contents `V` at entry.
-/
import proofs.«132016_g56513179681533_cont_9to1c4b_341_1_alg».proof.Proof.Gen.KernelIdeal.Frame
import proofs.«132016_g56513179681533_cont_9to1c4b_341_1_alg».proof.Proof.Spec
import proofs.«132016_g56513179681533_cont_9to1c4b_341_1_alg».proof.Proof.KernelProducts
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The adjacency as the region finds it. -/
abbrev adjArr (c : Dev nD) : Spec.Mat 10000 10000 := V c main_arg1
/-- The first region's output as the region finds it. -/
abbrev sArr (c : Dev nD) : Spec.Mat 10000 128 := V c main_call0_v0
/-- The first bias, as a matrix of one row, as the region finds it. -/
abbrev bArr (c : Dev nD) : Spec.Mat 1 128 := V c main_call0_v1
/-- The second weight as the region finds it. -/
abbrev wArr (c : Dev nD) : Spec.Mat 128 128 := V c main_arg4

theorem hz : (![0, 0] : Fin 2 → Nat) = fun _ => 0 := funext fun a => by fin_cases a <;> rfl

/-- The body's stored value at entry (p, q). -/
theorem pay_apply (x0 : Vec Ideal S400x10000 .f32) (x1 : Vec Ideal S10000x128 .f32) (x2 : Vec Ideal S1x128 .f32) (x3 : Vec Ideal S128x128 .f32)
    (p : Fin 400) (q : Fin 128) :
    k1_pay1 x0 x1 x2 x3 (ix2 p q)
      = ∑ k : Fin 128, max ((∑ l : Fin 10000, x0 (ix2 p l) * x1 (ix2 l k)) + x2 (ix2 (0 : Fin 1) k)) 0 * x3 (ix2 k q) := by
  unfold k1_pay1
  refine (Products.matmulW_apply _ x3 p q).trans ?_
  refine Finset.sum_congr rfl fun k _ => ?_
  refine congrArg (· * x3 (ix2 k q)) ?_
  rw [maximumf_apply, addf_apply, broadcast_apply, shapeCast_self, shapeCast_self, Products.matmulA_apply]
  rw [broadcastTo_apply x2 _ (ix2 p k) (ix2 (0 : Fin 1) k) (fun a => match a with
      | ⟨0, _⟩ => by show (0 : Nat) = if (1 : Nat) = 1 then 0 else p.val; rw [if_pos rfl]
      | ⟨1, _⟩ => by show k.val = if (128 : Nat) = 1 then 0 else k.val; rw [if_neg (by decide)])]
  rw [Ideal.ofBits_def, Ideal.ofBits_zero_f32]

/-- The index maps over the grid: the adjacency strip and the output strip are both strip t, on all columns;
    each other operand's one block is the whole operand. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt25 (t : Fin cfg1.N) : t.val < 25 := lt_of_lt_of_eq t.isLt N_1

/-- Row p of strip t is row 400·t + p of the array. -/
def row (t : Fin cfg1.N) (p : Fin 400) : Fin 10000 := ⟨t.val * 400 + p.val, by have := lt25 t; have := p.isLt; omega⟩

/-- WHAT POINT t WRITES BACK is strip t of clip0 (adj · S1 + b1) · W2. -/
theorem flushed_eq (c : Dev nD) (t : Fin cfg1.N) :
    (dat1 V c).flushed 4 t = ((cfg1.win 4).blk t).view.read (Elt Ideal)
      (Spec.hidden (adjArr V c) (sArr V c) (Spec.ofRowMat (bArr V c)) (wArr V c)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S1x128) hz, View.ld_unit_zero (S := S128x128) hz]
  obtain ⟨e0, e1, e2, e3, e4, e5, e6, e7, e8, e9⟩ := idx_facts t
  funext j
  obtain ⟨p, q, rfl⟩ : ∃ (p : Fin 400) (q : Fin 128), j = ix2 p q := ⟨j 0, j 1, eq_ix2 j⟩
  refine (pay_apply (iblk1 V c 0 t) (iblk1 V c 1 t) (iblk1 V c 2 t) (iblk1 V c 3 t) p q).trans ?_
  show ∑ k : Fin 128, max ((∑ l : Fin 10000, adjArr V c (((cfg1.win 0).blk t).view.emb (ix2 p l)) * sArr V c (((cfg1.win 1).blk t).view.emb (ix2 l k)))
        + bArr V c (((cfg1.win 2).blk t).view.emb (ix2 (0 : Fin 1) k))) 0 * wArr V c (((cfg1.win 3).blk t).view.emb (ix2 k q))
      = Spec.hidden (adjArr V c) (sArr V c) (Spec.ofRowMat (bArr V c)) (wArr V c) (((cfg1.win 4).blk t).view.emb (ix2 p q))
  have ho : ((cfg1.win 4).blk t).view.emb (ix2 p q) = (ix2 (row t p) q : S10000x128.Idx) := by
    funext a; apply Fin.ext
    match a with
    | ⟨0, _⟩ => show win1_4.index t (0 : Fin 2) * 400 + 1 * p.val = t.val * 400 + p.val; omega
    | ⟨1, _⟩ => show win1_4.index t (1 : Fin 2) * 128 + 1 * q.val = q.val; omega
  rw [ho]
  show _ = ∑ k : Fin 128, max ((∑ l : Fin 10000, adjArr V c (ix2 (row t p) l) * sArr V c (ix2 l k)) + bArr V c (ix2 (0 : Fin 1) k)) 0 * wArr V c (ix2 k q)
  refine Finset.sum_congr rfl fun k _ => ?_
  have hb : ((cfg1.win 2).blk t).view.emb (ix2 (0 : Fin 1) k) = (ix2 (0 : Fin 1) k : S1x128.Idx) := by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have hw : ((cfg1.win 3).blk t).view.emb (ix2 k q) = (ix2 k q : S128x128.Idx) := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [hb, hw]
  refine congrArg (fun z => max (z + bArr V c (ix2 (0 : Fin 1) k)) 0 * wArr V c (ix2 k q)) ?_
  refine Finset.sum_congr rfl fun l _ => ?_
  have ha : ((cfg1.win 0).blk t).view.emb (ix2 p l) = (ix2 (row t p) l : S10000x10000.Idx) := by
    funext a; apply Fin.ext
    match a with
    | ⟨0, _⟩ => show win1_0.index t (0 : Fin 2) * 400 + 1 * p.val = t.val * 400 + p.val; omega
    | ⟨1, _⟩ => show win1_0.index t (1 : Fin 2) * 10000 + 1 * l.val = l.val; omega
  have hs : ((cfg1.win 1).blk t).view.emb (ix2 l k) = (ix2 l k : S10000x128.Idx) := by
    funext a; apply Fin.ext
    match a with
    | ⟨0, _⟩ => show win1_1.index t (0 : Fin 2) * 10000 + 1 * l.val = l.val; omega
    | ⟨1, _⟩ => show win1_1.index t (1 : Fin 2) * 128 + 1 * k.val = k.val; omega
  rw [ha, hs]

/-- An index of the output array is in point t's block iff each coordinate is in the block's range on its axis. -/
theorem mem_blk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_call0_v2).slice (win1_4.rect t)).set ↔ _
  rw [View.set_slice_whole, Rect.mem_set_unit]
  exact Iff.rfl

/-- The 25 strips tile the rows: row r lies in strip r / 400. -/
theorem cover (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : (i 0).val / 400 < cfg1.N := by show _ < grid1.N; rw [N_1]; omega
  obtain ⟨-, -, -, -, -, -, -, -, e8, e9⟩ := idx_facts ⟨(i 0).val / 400, hN⟩
  refine ⟨⟨(i 0).val / 400, hN⟩, flush1_4 _, ?_⟩
  rw [mem_blk]
  intro a
  match a with
  | ⟨0, _⟩ =>
    show win1_4.index ⟨(i 0).val / 400, hN⟩ (0 : Fin 2) * 400 ≤ (i 0).val ∧ (i 0).val < win1_4.index ⟨(i 0).val / 400, hN⟩ (0 : Fin 2) * 400 + 400
    rw [e8]; show (i 0).val / 400 * 400 ≤ (i 0).val ∧ (i 0).val < (i 0).val / 400 * 400 + 400; omega
  | ⟨1, _⟩ =>
    show win1_4.index ⟨(i 0).val / 400, hN⟩ (1 : Fin 2) * 128 ≤ (i 1).val ∧ (i 1).val < win1_4.index ⟨(i 0).val / 400, hN⟩ (1 : Fin 2) * 128 + 128
    rw [e9]; omega

/-- THE OUTPUT ARRAY after the region: clip0 (adj · S1 + b1) · W2 of the arrays the region was entered with. -/
theorem final (c : Dev nD) : (dat1 V c).arrAt 4 cfg1.N = Spec.hidden (adjArr V c) (sArr V c) (Spec.ofRowMat (bArr V c)) (wArr V c) :=
  (dat1 V c).arrAt_eq_of_cover 4 (Spec.hidden (adjArr V c) (sArr V c) (Spec.ofRowMat (bArr V c)) (wArr V c)) (fun t _ => flushed_eq V c t) cover

end Cert.KernelIdeal.Region1

end
-- ==== Proof.Region2.lean ====
/-
  The third region: out = adj · S2 + b2, computed in 25 strips of 400 rows.

  At grid point t the body reads rows 400·t … 400·t + 399 of the adjacency (all 10000 columns), the whole of S2
  and the bias as a 1 × 128 row; it multiplies the strip by S2 into a zero accumulator, adds the bias to every
  row and stores the 400 × 128 result, which is written back to rows 400·t … 400·t + 399 of the output. So entry
  (400·t + p, q) of the output is Σ_l adj (400·t + p, l) · S2 (l, q) + b2 q. The 25 strips tile the rows, so the
  output array ends as that function of the contents `V` at entry.
-/
import proofs.«132016_g56513179681533_cont_9to1c4b_341_1_alg».proof.Proof.Gen.KernelIdeal.Frame
import proofs.«132016_g56513179681533_cont_9to1c4b_341_1_alg».proof.Proof.Spec
import proofs.«132016_g56513179681533_cont_9to1c4b_341_1_alg».proof.Proof.KernelProducts
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The adjacency as the region finds it. -/
abbrev adjArr (c : Dev nD) : Spec.Mat 10000 10000 := V c main_arg1
/-- The second region's output as the region finds it. -/
abbrev hArr (c : Dev nD) : Spec.Mat 10000 128 := V c main_call0_v2
/-- The second bias, as a matrix of one row, as the region finds it. -/
abbrev bArr (c : Dev nD) : Spec.Mat 1 128 := V c main_call0_v3

theorem hz : (![0, 0] : Fin 2 → Nat) = fun _ => 0 := funext fun a => by fin_cases a <;> rfl

/-- The body's stored value at entry (p, q). -/
theorem pay_apply (x0 : Vec Ideal S400x10000 .f32) (x1 : Vec Ideal S10000x128 .f32) (x2 : Vec Ideal S1x128 .f32)
    (p : Fin 400) (q : Fin 128) :
    k2_pay1 x0 x1 x2 (ix2 p q) = (∑ l : Fin 10000, x0 (ix2 p l) * x1 (ix2 l q)) + x2 (ix2 (0 : Fin 1) q) := by
  unfold k2_pay1
  rw [addf_apply, shapeCast_self, shapeCast_self, Products.matmulA_apply]
  rw [broadcastTo_apply x2 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])]

/-- The index maps over the grid: the adjacency strip and the output strip are both strip t, on all columns;
    each other operand's one block is the whole operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt25 (t : Fin cfg2.N) : t.val < 25 := lt_of_lt_of_eq t.isLt N_2

/-- Row p of strip t is row 400·t + p of the array. -/
def row (t : Fin cfg2.N) (p : Fin 400) : Fin 10000 := ⟨t.val * 400 + p.val, by have := lt25 t; have := p.isLt; omega⟩

/-- WHAT POINT t WRITES BACK is strip t of adj · S2 + b2. -/
theorem flushed_eq (c : Dev nD) (t : Fin cfg2.N) :
    (dat2 V c).flushed 3 t = ((cfg2.win 3).blk t).view.read (Elt Ideal)
      (Spec.aggregate (adjArr V c) (hArr V c) (Spec.ofRowMat (bArr V c))) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x128) hz, View.ld_unit_zero (S := S1x128) hz]
  obtain ⟨e0, e1, e2, e3, e4, e5, e6, e7⟩ := idx_facts t
  funext j
  obtain ⟨p, q, rfl⟩ : ∃ (p : Fin 400) (q : Fin 128), j = ix2 p q := ⟨j 0, j 1, eq_ix2 j⟩
  refine (pay_apply (iblk2 V c 0 t) (iblk2 V c 1 t) (iblk2 V c 2 t) p q).trans ?_
  show (∑ l : Fin 10000, adjArr V c (((cfg2.win 0).blk t).view.emb (ix2 p l)) * hArr V c (((cfg2.win 1).blk t).view.emb (ix2 l q)))
        + bArr V c (((cfg2.win 2).blk t).view.emb (ix2 (0 : Fin 1) q))
      = Spec.aggregate (adjArr V c) (hArr V c) (Spec.ofRowMat (bArr V c)) (((cfg2.win 3).blk t).view.emb (ix2 p q))
  have ho : ((cfg2.win 3).blk t).view.emb (ix2 p q) = (ix2 (row t p) q : S10000x128.Idx) := by
    funext a; apply Fin.ext
    match a with
    | ⟨0, _⟩ => show win2_3.index t (0 : Fin 2) * 400 + 1 * p.val = t.val * 400 + p.val; omega
    | ⟨1, _⟩ => show win2_3.index t (1 : Fin 2) * 128 + 1 * q.val = q.val; omega
  rw [ho]
  show _ = (∑ l : Fin 10000, adjArr V c (ix2 (row t p) l) * hArr V c (ix2 l q)) + bArr V c (ix2 (0 : Fin 1) q)
  have hb : ((cfg2.win 2).blk t).view.emb (ix2 (0 : Fin 1) q) = (ix2 (0 : Fin 1) q : S1x128.Idx) := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  rw [hb]
  refine congrArg (fun z => z + bArr V c (ix2 (0 : Fin 1) q)) ?_
  refine Finset.sum_congr rfl fun l _ => ?_
  have ha : ((cfg2.win 0).blk t).view.emb (ix2 p l) = (ix2 (row t p) l : S10000x10000.Idx) := by
    funext a; apply Fin.ext
    match a with
    | ⟨0, _⟩ => show win2_0.index t (0 : Fin 2) * 400 + 1 * p.val = t.val * 400 + p.val; omega
    | ⟨1, _⟩ => show win2_0.index t (1 : Fin 2) * 10000 + 1 * l.val = l.val; omega
  have hs : ((cfg2.win 1).blk t).view.emb (ix2 l q) = (ix2 l q : S10000x128.Idx) := by
    funext a; apply Fin.ext
    match a with
    | ⟨0, _⟩ => show win2_1.index t (0 : Fin 2) * 10000 + 1 * l.val = l.val; omega
    | ⟨1, _⟩ => show win2_1.index t (1 : Fin 2) * 128 + 1 * q.val = q.val; omega
  rw [ha, hs]

/-- An index of the output array is in point t's block iff each coordinate is in the block's range on its axis. -/
theorem mem_blk (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v0).slice (win2_3.rect t)).set ↔ _
  rw [View.set_slice_whole, Rect.mem_set_unit]
  exact Iff.rfl

/-- The 25 strips tile the rows: row r lies in strip r / 400. -/
theorem cover (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  have hN : (i 0).val / 400 < cfg2.N := by show _ < grid2.N; rw [N_2]; omega
  obtain ⟨-, -, -, -, -, -, e6, e7⟩ := idx_facts ⟨(i 0).val / 400, hN⟩
  refine ⟨⟨(i 0).val / 400, hN⟩, flush2_3 _, ?_⟩
  rw [mem_blk]
  intro a
  match a with
  | ⟨0, _⟩ =>
    show win2_3.index ⟨(i 0).val / 400, hN⟩ (0 : Fin 2) * 400 ≤ (i 0).val ∧ (i 0).val < win2_3.index ⟨(i 0).val / 400, hN⟩ (0 : Fin 2) * 400 + 400
    rw [e6]; show (i 0).val / 400 * 400 ≤ (i 0).val ∧ (i 0).val < (i 0).val / 400 * 400 + 400; omega
  | ⟨1, _⟩ =>
    show win2_3.index ⟨(i 0).val / 400, hN⟩ (1 : Fin 2) * 128 ≤ (i 1).val ∧ (i 1).val < win2_3.index ⟨(i 0).val / 400, hN⟩ (1 : Fin 2) * 128 + 128
    rw [e7]; omega

/-- THE OUTPUT ARRAY after the region: adj · S2 + b2 of the arrays the region was entered with. -/
theorem final (c : Dev nD) : (dat2 V c).arrAt 3 cfg2.N = Spec.aggregate (adjArr V c) (hArr V c) (Spec.ofRowMat (bArr V c)) :=
  (dat2 V c).arrAt_eq_of_cover 3 (Spec.aggregate (adjArr V c) (hArr V c) (Spec.ofRowMat (bArr V c))) (fun t _ => flushed_eq V c t) cover

end Cert.KernelIdeal.Region2

end
-- ==== Proof.Fold.lean ====
/-
  The result array, folded back through the three regions and the two reshapes to the launch memory.

  The last region leaves adj · S2 + b2 of the arrays it was entered with; of those, the adjacency is the launch
  adjacency (nothing writes it), the bias row is the reshape of the launch bias b2, and S2 is what the second region
  left: clip0 (adj · S1 + b1) · W2 of the arrays IT was entered with, where again adj, W2 are as launched, the bias
  row is the reshape of b1, and S1 is what the first region left, x · W1 of the launch arrays. A vector reshaped to
  one row and read back as a vector is the vector. Composed: the result array is the two-layer map of the six inputs.
-/
import proofs.«132016_g56513179681533_cont_9to1c4b_341_1_alg».proof.Proof.Gen.KernelIdeal.Frame
import proofs.«132016_g56513179681533_cont_9to1c4b_341_1_alg».proof.Proof.Spec
import proofs.«132016_g56513179681533_cont_9to1c4b_341_1_alg».proof.Proof.Region0
import proofs.«132016_g56513179681533_cont_9to1c4b_341_1_alg».proof.Proof.Region1
import proofs.«132016_g56513179681533_cont_9to1c4b_341_1_alg».proof.Proof.Region2
import Idealize.ShloMosaic.Lib.StableHlo.Run
import Idealize.ShloMosaic.Lib.Pipeline.Value

set_option maxRecDepth 16384

noncomputable section

open scoped BigOperators

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The six inputs as launched. -/
abbrev x (c : Dev nD) : Spec.Mat 10000 128 := m ((c.tc : Thread nD τ).loc main_arg0)
abbrev adj (c : Dev nD) : Spec.Mat 10000 10000 := m ((c.tc : Thread nD τ).loc main_arg1)
abbrev w1 (c : Dev nD) : Spec.Mat 128 128 := m ((c.tc : Thread nD τ).loc main_arg2)
abbrev b1 (c : Dev nD) : Spec.Row 128 := m ((c.tc : Thread nD τ).loc main_arg3)
abbrev w2 (c : Dev nD) : Spec.Mat 128 128 := m ((c.tc : Thread nD τ).loc main_arg4)
abbrev b2 (c : Dev nD) : Spec.Row 128 := m ((c.tc : Thread nD τ).loc main_arg5)

/-- A vector reshaped to a matrix of one row, read back as a vector, is the vector. -/
theorem ofRowMat_reshape (y : S128.Idx → EReal) (h : S128.ShapeCasts S1x128) :
    Spec.ofRowMat (shapeCast S1x128 y h : Spec.Mat 1 128) = y := by
  funext i
  obtain ⟨q, rfl⟩ : ∃ q : Fin 128, i = ix1 q := ⟨i 0, eq_ix1 i⟩
  show shapeCast S1x128 y h (ix2 (0 : Fin 1) q) = y (ix1 q)
  refine shapeCast_apply y h (ix2 (0 : Fin 1) q) (ix1 q) ?_
  rw [Shape.rowMajor_val_one, Shape.rowMajor_val_two]
  show q.val = 0 * 128 + q.val
  omega

/-! ## Entering the second region -/

theorem adj_2 (c : Dev nD) : Region1.adjArr (V2 m ρ) c = adj m c :=
  calc W2 m ρ c (Proc.devRef .tc main_arg1)
    _ = W1 m ρ c (Proc.devRef .tc main_arg1) := StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg1) := W1_of_ne m ρ c main_arg1 (by decide)
    _ = m ((c.tc : Thread nD τ).loc main_arg1) := rfl

theorem w2_2 (c : Dev nD) : Region1.wArr (V2 m ρ) c = w2 m c :=
  calc W2 m ρ c (Proc.devRef .tc main_arg4)
    _ = W1 m ρ c (Proc.devRef .tc main_arg4) := StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W0 m ρ c (Proc.devRef .tc main_arg4) := W1_of_ne m ρ c main_arg4 (by decide)
    _ = m ((c.tc : Thread nD τ).loc main_arg4) := rfl

theorem s1_2 (c : Dev nD) : Region1.sArr (V2 m ρ) c = Spec.mul (x m c) (w1 m c) :=
  calc W2 m ρ c (Proc.devRef .tc main_call0_v0)
    _ = W1 m ρ c (Proc.devRef .tc main_call0_v0) := StableHlo.after_of_forall_not_mem (b := Proc.devRef .tc main_call0_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (V0 m ρ) c).arrAt 2 cfg0.N := W1_arr m ρ c 2
    _ = Spec.mul (Region0.xArr (V0 m ρ) c) (Region0.wArr (V0 m ρ) c) := Region0.final (V0 m ρ) c
    _ = Spec.mul (x m c) (w1 m c) := rfl

theorem b1_2 (c : Dev nD) : Spec.ofRowMat (Region1.bArr (V2 m ρ) c) = b1 m c := by
  have e : Region1.bArr (V2 m ρ) c = (shapeCast S1x128 (W1 m ρ c (Proc.devRef .tc main_arg3)) shapeCasts_S128_S1x128 : Spec.Mat 1 128) := by
    show StableHlo.after hostOps1 (W1 m ρ c) (Proc.devRef .tc main_call0_v1) = _
    after_results
    rfl
  rw [e, ofRowMat_reshape]
  exact W1_of_ne m ρ c main_arg3 (by decide)

/-! ## Entering the third region -/

theorem adj_4 (c : Dev nD) : Region2.adjArr (V4 m ρ) c = adj m c :=
  calc W4 m ρ c (Proc.devRef .tc main_arg1)
    _ = W3 m ρ c (Proc.devRef .tc main_arg1) := StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = adj m c := adj_2 m ρ c

theorem s2_4 (c : Dev nD) :
    Region2.hArr (V4 m ρ) c = Spec.hidden (adj m c) (Spec.mul (x m c) (w1 m c)) (b1 m c) (w2 m c) :=
  calc W4 m ρ c (Proc.devRef .tc main_call0_v2)
    _ = W3 m ρ c (Proc.devRef .tc main_call0_v2) := StableHlo.after_of_forall_not_mem (b := Proc.devRef .tc main_call0_v2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat1 (V2 m ρ) c).arrAt 4 cfg1.N := W3_arr m ρ c 4
    _ = Spec.hidden (Region1.adjArr (V2 m ρ) c) (Region1.sArr (V2 m ρ) c) (Spec.ofRowMat (Region1.bArr (V2 m ρ) c)) (Region1.wArr (V2 m ρ) c) :=
        Region1.final (V2 m ρ) c
    _ = Spec.hidden (adj m c) (Spec.mul (x m c) (w1 m c)) (b1 m c) (w2 m c) := by rw [adj_2, s1_2, b1_2, w2_2]

theorem b2_4 (c : Dev nD) : Spec.ofRowMat (Region2.bArr (V4 m ρ) c) = b2 m c := by
  have e : Region2.bArr (V4 m ρ) c = (shapeCast S1x128 (W3 m ρ c (Proc.devRef .tc main_arg5)) shapeCasts_S128_S1x128 : Spec.Mat 1 128) := by
    show StableHlo.after hostOps2 (W3 m ρ c) (Proc.devRef .tc main_call0_v3) = _
    after_results
    rfl
  rw [e, ofRowMat_reshape]
  exact
    calc W3 m ρ c (Proc.devRef .tc main_arg5)
      _ = W2 m ρ c (Proc.devRef .tc main_arg5) := W3_of_ne m ρ c main_arg5 (by decide)
      _ = W1 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
      _ = W0 m ρ c (Proc.devRef .tc main_arg5) := W1_of_ne m ρ c main_arg5 (by decide)
      _ = m ((c.tc : Thread nD τ).loc main_arg5) := rfl

/-! ## The result -/

/-- THE RESULT ARRAY at the last boundary is the two-layer map of the six launch arrays. -/
theorem result_eq (c : Dev nD) :
    W5 m ρ c (Proc.devRef .tc main_v0) = Spec.gcn (x m c) (adj m c) (w1 m c) (b1 m c) (w2 m c) (b2 m c) :=
  calc W5 m ρ c (Proc.devRef .tc main_v0)
    _ = (dat2 (V4 m ρ) c).arrAt 3 cfg2.N := W5_arr m ρ c 3
    _ = Spec.aggregate (Region2.adjArr (V4 m ρ) c) (Region2.hArr (V4 m ρ) c) (Spec.ofRowMat (Region2.bArr (V4 m ρ) c)) :=
        Region2.final (V4 m ρ) c
    _ = Spec.aggregate (adj m c) (Spec.hidden (adj m c) (Spec.mul (x m c) (w1 m c)) (b1 m c) (w2 m c)) (b2 m c) := by
        rw [adj_4, s2_4, b2_4]
    _ = Spec.gcn (x m c) (adj m c) (w1 m c) (b1 m c) (w2 m c) (b2 m c) := rfl

end Cert.KernelIdeal.Fold

end
-- ==== Proof.RefValue.lean ====
/-
  The reference, one operation at a time, is the same two-layer map.

  Its thirteen host operations are: x · W1; adj · (that); the bias b1 broadcast to a row and then to all 10000
  rows; their sum; the zero constant broadcast; the entrywise maximum; times W2; adj · (that); the bias b2
  broadcast the same way; their sum. Read at an entry, each product is the sum over the contracted coordinate
  and each broadcast reads the bias at the column: stage by stage these are `mul`, `addRow` and `clip0`.
-/
import proofs.«132016_g56513179681533_cont_9to1c4b_341_1_alg».proof.Proof.Gen.ReferenceIdeal.Read
import proofs.«132016_g56513179681533_cont_9to1c4b_341_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## The operand indices of each product and broadcast, by coordinates -/

theorem l0 (r : Fin 10000) (q k : Fin 128) : lidx_main_v0 (ix2 r q) k = ix2 r k := funext fun a => Fin.ext (by match a with | ⟨0, _⟩ => rfl | ⟨1, _⟩ => rfl)
theorem r0 (r : Fin 10000) (q k : Fin 128) : ridx_main_v0 (ix2 r q) k = ix2 k q := funext fun a => Fin.ext (by match a with | ⟨0, _⟩ => rfl | ⟨1, _⟩ => rfl)
theorem l1 (r : Fin 10000) (q : Fin 128) (k : Fin 10000) : lidx_main_v1 (ix2 r q) k = ix2 r k := funext fun a => Fin.ext (by match a with | ⟨0, _⟩ => rfl | ⟨1, _⟩ => rfl)
theorem r1 (r : Fin 10000) (q : Fin 128) (k : Fin 10000) : ridx_main_v1 (ix2 r q) k = ix2 k q := funext fun a => Fin.ext (by match a with | ⟨0, _⟩ => rfl | ⟨1, _⟩ => rfl)
theorem l6 (r : Fin 10000) (q k : Fin 128) : lidx_main_v6 (ix2 r q) k = ix2 r k := funext fun a => Fin.ext (by match a with | ⟨0, _⟩ => rfl | ⟨1, _⟩ => rfl)
theorem r6 (r : Fin 10000) (q k : Fin 128) : ridx_main_v6 (ix2 r q) k = ix2 k q := funext fun a => Fin.ext (by match a with | ⟨0, _⟩ => rfl | ⟨1, _⟩ => rfl)
theorem l7 (r : Fin 10000) (q : Fin 128) (k : Fin 10000) : lidx_main_v7 (ix2 r q) k = ix2 r k := funext fun a => Fin.ext (by match a with | ⟨0, _⟩ => rfl | ⟨1, _⟩ => rfl)
theorem r7 (r : Fin 10000) (q : Fin 128) (k : Fin 10000) : ridx_main_v7 (ix2 r q) k = ix2 k q := funext fun a => Fin.ext (by match a with | ⟨0, _⟩ => rfl | ⟨1, _⟩ => rfl)
theorem i3 (r : Fin 10000) (q : Fin 128) : idx_main_v3 (ix2 r q) = ix2 (0 : Fin 1) q := funext fun a => Fin.ext (by match a with | ⟨0, _⟩ => rfl | ⟨1, _⟩ => rfl)
theorem i9 (r : Fin 10000) (q : Fin 128) : idx_main_v9 (ix2 r q) = ix2 (0 : Fin 1) q := funext fun a => Fin.ext (by match a with | ⟨0, _⟩ => rfl | ⟨1, _⟩ => rfl)
theorem i2 (a : Fin 1) (q : Fin 128) : idx_main_v2 (ix2 a q) = ix1 q := funext fun d => Fin.ext (by match d with | ⟨0, _⟩ => rfl)
theorem i8 (a : Fin 1) (q : Fin 128) : idx_main_v8 (ix2 a q) = ix1 q := funext fun d => Fin.ext (by match d with | ⟨0, _⟩ => rfl)

/-! ## The stages -/

/-- x · W1. -/
theorem stage0 (x0 : (⟨S10000x128, .f32⟩ : BufTy).Contents (Elt Ideal)) (x2 : (⟨S128x128, .f32⟩ : BufTy).Contents (Elt Ideal)) : val_main_v0 (F := Ideal) x0 x2 = Spec.mul x0 x2 := by
  funext i
  obtain ⟨r, q, rfl⟩ : ∃ (r : Fin 10000) (q : Fin 128), i = ix2 r q := ⟨i 0, i 1, eq_ix2 i⟩
  rw [val_main_v0_apply, Spec.mul_apply]
  simp only [l0, r0]

/-- adj · (x · W1). -/
theorem stage1 (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = Spec.mul x1 (Spec.mul x0 x2) := by
  funext i
  obtain ⟨r, q, rfl⟩ : ∃ (r : Fin 10000) (q : Fin 128), i = ix2 r q := ⟨i 0, i 1, eq_ix2 i⟩
  rw [val_main_v1_apply, stage0, Spec.mul_apply]
  simp only [l1, r1]

/-- The first bias broadcast to every row, at (r, q): the bias at q. -/
theorem stage3 (x3 : (⟨S128, .f32⟩ : BufTy).Contents (Elt Ideal)) (r : Fin 10000) (q : Fin 128) : val_main_v3 (F := Ideal) x3 (ix2 r q) = x3 (ix1 q) := by
  rw [val_main_v3_apply, i3, val_main_v2_apply, i2]

/-- adj · (x · W1) + b1. -/
theorem stage4 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v4 (F := Ideal) x0 x1 x2 x3 = Spec.addRow (Spec.mul x1 (Spec.mul x0 x2)) x3 := by
  funext i
  obtain ⟨r, q, rfl⟩ : ∃ (r : Fin 10000) (q : Fin 128), i = ix2 r q := ⟨i 0, i 1, eq_ix2 i⟩
  rw [val_main_v4_apply, stage1, stage3, Spec.addRow_apply]
  rfl

/-- The broadcast zero. -/
theorem zero_apply (i : S10000x128.Idx) : val_main_call0_v0 (F := Ideal) i = 0 := by
  rw [val_main_call0_v0_apply, val_main_call0_cst_apply, Ideal.ofBits_def, Ideal.ofBits_zero_f32]

/-- clip0 (adj · (x · W1) + b1). -/
theorem stage5 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = Spec.clip0 (Spec.addRow (Spec.mul x1 (Spec.mul x0 x2)) x3) := by
  funext i
  obtain ⟨r, q, rfl⟩ : ∃ (r : Fin 10000) (q : Fin 128), i = ix2 r q := ⟨i 0, i 1, eq_ix2 i⟩
  rw [val_main_v5_apply, stage4, zero_apply, Spec.clip0_apply]
  rfl

/-- clip0 (adj · (x · W1) + b1) · W2. -/
theorem stage6 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v6 (F := Ideal) x0 x1 x2 x3 x4 = Spec.hidden x1 (Spec.mul x0 x2) x3 x4 := by
  funext i
  obtain ⟨r, q, rfl⟩ : ∃ (r : Fin 10000) (q : Fin 128), i = ix2 r q := ⟨i 0, i 1, eq_ix2 i⟩
  rw [val_main_v6_apply, stage5]
  show _ = Spec.mul (Spec.clip0 (Spec.addRow (Spec.mul x1 (Spec.mul x0 x2)) x3)) x4 (ix2 r q)
  rw [Spec.mul_apply]
  simp only [l6, r6]

/-- adj · (clip0 (adj · (x · W1) + b1) · W2). -/
theorem stage7 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v7 (F := Ideal) x0 x1 x2 x3 x4 = Spec.mul x1 (Spec.hidden x1 (Spec.mul x0 x2) x3 x4) := by
  funext i
  obtain ⟨r, q, rfl⟩ : ∃ (r : Fin 10000) (q : Fin 128), i = ix2 r q := ⟨i 0, i 1, eq_ix2 i⟩
  rw [val_main_v7_apply, stage6, Spec.mul_apply]
  simp only [l7, r7]

/-- The second bias broadcast to every row, at (r, q): the bias at q. -/
theorem stage9 (x5 : (⟨S128, .f32⟩ : BufTy).Contents (Elt Ideal)) (r : Fin 10000) (q : Fin 128) : val_main_v9 (F := Ideal) x5 (ix2 r q) = x5 (ix1 q) := by
  rw [val_main_v9_apply, i9, val_main_v8_apply, i8]

/-- THE REFERENCE'S RESULT is the two-layer map of the six inputs. -/
theorem result (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v10 (F := Ideal) x0 x1 x2 x3 x4 x5 = Spec.gcn x0 x1 x2 x3 x4 x5 := by
  funext i
  obtain ⟨r, q, rfl⟩ : ∃ (r : Fin 10000) (q : Fin 128), i = ix2 r q := ⟨i 0, i 1, eq_ix2 i⟩
  rw [val_main_v10_apply, stage7, stage9]
  show _ = Spec.addRow (Spec.mul x1 (Spec.hidden x1 (Spec.mul x0 x2) x3 x4)) x5 (ix2 r q)
  rw [Spec.addRow_apply]
  rfl

end Cert.ReferenceIdeal.RefValue

end
-- ==== Proof.lean ====
/-
  A two-layer graph convolution with a dense 10000 × 10000 adjacency, as three row-strip kernels, against the
  plain matrix formula:

      out = adj · (clip0 (adj · (x · W1) + b1) · W2) + b2        (clip0 = entrywise maximum with zero).

  The kernel program computes S1 = x · W1, then S2 = clip0 (adj · S1 + b1) · W2, then out = adj · S2 + b2, each in
  25 strips of 400 rows: a strip of the left factor against the whole right factor, so no contracted axis is ever
  tiled and each output entry is exactly the full sum over the contracted coordinate. The reference applies the same
  products, the same bias additions and the same maximum in the same order. Over the extended reals both results
  are therefore one function of the six inputs (`Spec.gcn`), entry by entry, and no algebraic law beyond
  reading each operation at an entry is needed: the inputs' finiteness is not used.

  The three frames: the two kernel programs' are the generated ones (each region's body run once at a symbolic grid
  point); the reference's is its generated run with the result dropped. The idealization rewrote nothing, so
  `preserves` is trivial.
-/
import proofs.«132016_g56513179681533_cont_9to1c4b_341_1_alg».proof.Defs
import proofs.«132016_g56513179681533_cont_9to1c4b_341_1_alg».proof.Proof.Gen.Kernel
import proofs.«132016_g56513179681533_cont_9to1c4b_341_1_alg».proof.Proof.Gen.Kernel.Skeleton
import proofs.«132016_g56513179681533_cont_9to1c4b_341_1_alg».proof.Proof.Gen.Kernel.Launch
import proofs.«132016_g56513179681533_cont_9to1c4b_341_1_alg».proof.Proof.Gen.Kernel.Points
import proofs.«132016_g56513179681533_cont_9to1c4b_341_1_alg».proof.Proof.Gen.Kernel.Frame
import proofs.«132016_g56513179681533_cont_9to1c4b_341_1_alg».proof.Proof.Gen.KernelIdeal
import proofs.«132016_g56513179681533_cont_9to1c4b_341_1_alg».proof.Proof.Gen.KernelIdeal.Skeleton
import proofs.«132016_g56513179681533_cont_9to1c4b_341_1_alg».proof.Proof.Gen.KernelIdeal.Launch
import proofs.«132016_g56513179681533_cont_9to1c4b_341_1_alg».proof.Proof.Gen.KernelIdeal.Points
import proofs.«132016_g56513179681533_cont_9to1c4b_341_1_alg».proof.Proof.Gen.KernelIdeal.Frame
import proofs.«132016_g56513179681533_cont_9to1c4b_341_1_alg».proof.Proof.Gen.ReferenceIdeal
import proofs.«132016_g56513179681533_cont_9to1c4b_341_1_alg».proof.Proof.Gen.ReferenceIdeal.Run
import proofs.«132016_g56513179681533_cont_9to1c4b_341_1_alg».proof.Proof.Gen.ReferenceIdeal.Read
import proofs.«132016_g56513179681533_cont_9to1c4b_341_1_alg».proof.Proof.Gen.Pre_finite_inputs
import proofs.«132016_g56513179681533_cont_9to1c4b_341_1_alg».proof.Proof.Spec
import proofs.«132016_g56513179681533_cont_9to1c4b_341_1_alg».proof.Proof.KernelRun
import proofs.«132016_g56513179681533_cont_9to1c4b_341_1_alg».proof.Proof.Fold
import proofs.«132016_g56513179681533_cont_9to1c4b_341_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the two-layer map of the six inputs: the kernel's three strips-of-rows
    regions folded back to the launch arrays, the reference's thirteen operations read stage by stage. -/
theorem algebraic : Cert.algebraic_KernelIdeal_ReferenceIdeal := by
  intro m ρ m' ρ' _ hagree
  refine ⟨fun c => Cert.Spec.gcn (Cert.KernelIdeal.Fold.x m c) (Cert.KernelIdeal.Fold.adj m c) (Cert.KernelIdeal.Fold.w1 m c)
      (Cert.KernelIdeal.Fold.b1 m c) (Cert.KernelIdeal.Fold.w2 m c) (Cert.KernelIdeal.Fold.b2 m c), ?_, ?_⟩
  · exact (θ_run Cert.KernelIdeal.defs _ _).mono
      (fun _ h c => ⟨(h c).1.trans (Cert.KernelIdeal.Fold.result_eq m ρ c), (h c).2⟩)
      (Cert.KernelIdeal.Run.result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v10_eq, Cert.ReferenceIdeal.RefValue.result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
